-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x1 : Shape := ⟨2, ![64, 1]⟩
abbrev S1 : Shape := ⟨1, ![1]⟩
abbrev S1x64 : Shape := ⟨2, ![1, 64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  main_v18

def fn {F : FTy → Type} [FloatOps F] (main_arg0 : FVec F S1048576x64 .f32) (main_arg1 : FVec F S64x1 .f32) (main_arg2 : FVec F S1 .f32) (main_arg3 : FVec F S1x64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_v13 main_v16
-- ==== Kernel.lean ====
abbrev S1048576x64 : Shape := ⟨2, ![1048576, 64]⟩
abbrev S64x1 : Shape := ⟨2, ![64, 1]⟩
abbrev S1 : Shape := ⟨1, ![1]⟩
abbrev S1x64 : Shape := ⟨2, ![1, 64]⟩
abbrev S64 : Shape := ⟨1, ![64]⟩
abbrev S_ : Shape := ⟨0, ![]⟩
abbrev S1x1 : Shape := ⟨2, ![1, 1]⟩
abbrev S1048576x1 : Shape := ⟨2, ![1048576, 1]⟩
abbrev S8192x64 : Shape := ⟨2, ![8192, 64]⟩
abbrev S8192x1 : Shape := ⟨2, ![8192, 1]⟩
abbrev S8192 : Shape := ⟨1, ![8192]⟩
abbrev S1048576 : Shape := ⟨1, ![1048576]⟩

abbrev nBuf : Space → Nat
  | .hbm => 14
  | .vmem => 10
  | .smem => 0
  | _ => 0

abbrev bufTy : (tb : Table) → Fin (tcTables nBuf tb) → BufTy
  | .hbm, ⟨0, _⟩ => ⟨S1048576x64, .f32⟩
  | .hbm, ⟨1, _⟩ => ⟨S64x1, .f32⟩
  | .hbm, ⟨2, _⟩ => ⟨S1, .f32⟩
  | .hbm, ⟨3, _⟩ => ⟨S1x64, .f32⟩
  | .hbm, ⟨4, _⟩ => ⟨S1x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S1048576x64, .f32⟩
  | .hbm, ⟨12, _⟩ => ⟨S1048576x1, .f32⟩
  | .hbm, ⟨13, _⟩ => ⟨S1048576, .f32⟩
  | .local _ .vmem, ⟨0, _⟩ => ⟨S8192x64, .f32⟩
  | .local _ .vmem, ⟨1, _⟩ => ⟨S8192x64, .f32⟩
  | .local _ .vmem, ⟨2, _⟩ => ⟨S1x64, .f32⟩
  | .local _ .vmem, ⟨3, _⟩ => ⟨S1, .f32⟩
  | .local _ .vmem, ⟨4, _⟩ => ⟨S1x64, .f32⟩
  | .local _ .vmem, ⟨5, _⟩ => ⟨S1x1, .f32⟩
  | .local _ .vmem, ⟨6, _⟩ => ⟨S8192x64, .f32⟩
  | .local _ .vmem, ⟨7, _⟩ => ⟨S8192x64, .f32⟩
  | .local _ .vmem, ⟨8, _⟩ => ⟨S8192x1, .f32⟩
  | .local _ .vmem, ⟨9, _⟩ => ⟨S8192x1, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x1_S1x64_1_0 : S64x1.Transposes [1, 0] S1x64
  shapeCasts_S64x1_S64 : S64x1.ShapeCasts S64
  shapeCasts_S1x64_S64 : S1x64.ShapeCasts S64
  reducesTo_S64_S_d0 : S64.ReducesTo [0] S_
  h_S_ : 0 < S_.numel
  shapeCasts_S_S1x1 : S_.ShapeCasts S1x1
  inb_S8192x64_S8192x64_0_0 : ∀ a, (![0, 0] : Fin 2 → Nat) a + S8192x64.size a ≤ S8192x64.size a
  h_S8192x64 : 0 < S8192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1_S1_0 : ∀ a, (![0] : Fin 1 → Nat) a + S1.size a ≤ S1.size a
  h_S1 : 0 < S1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S8192x64 : S1x64.Broadcasts S8192x64
  reduces_S8192x64_S8192 : S8192x64.Reduces [1] S8192
  shapeCasts_S8192_S8192x1 : S8192.ShapeCasts S8192x1
  shapeCasts_S1_S1x1 : S1.ShapeCasts S1x1
  broadcasts_S1x1_S8192x1 : S1x1.Broadcasts S8192x1
  broadcasts_S8192x1_S8192x64 : S8192x1.Broadcasts S8192x64
  inb_S8192x1_S8192x1_0_0 : ∀ a, (![0, 0] : Fin 2 → Nat) a + S8192x1.size a ≤ S8192x1.size a
  h_S8192x1 : 0 < S8192x1.numel
  shapeCasts_S1048576x1_S1048576 : S1048576x1.ShapeCasts S1048576
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x64.size a ≤ S1048576x64.size a
  hwx0_5 : ∀ i : grid0.Coords, EltTy.bits .f32 = 32 ∨ (Rect.block (s := S1048576x64) S8192x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x1.size a ≤ S1048576x1.size a
  hwx0_6 : ∀ i : grid0.Coords, EltTy.bits .f32 = 32 ∨ (Rect.block (s := S1048576x1) S8192x1.size (cc0_transform_6 i) (hinb0_6 i)).WholeWords (EltTy.packing .f32)

variable [Facts₀]

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S8192x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S8192x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x1 : Shape := ⟨2, ![64, 1]⟩
abbrev S1 : Shape := ⟨1, ![1]⟩
abbrev S1x64 : Shape := ⟨2, ![1, 64]⟩
abbrev S1048576x1 : Shape := ⟨2, ![1048576, 1]⟩
abbrev S1x1 : Shape := ⟨2, ![1, 1]⟩
abbrev S64 : Shape := ⟨1, ![64]⟩
abbrev S_ : Shape := ⟨0, ![]⟩
abbrev S1048576 : Shape := ⟨1, ![1048576]⟩

abbrev nBuf : Space → Nat
  | .hbm => 28
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x1, .f32⟩
  | .hbm, ⟨2, _⟩ => ⟨S1, .f32⟩
  | .hbm, ⟨3, _⟩ => ⟨S1x64, .f32⟩
  | .hbm, ⟨4, _⟩ => ⟨S1048576x1, .f32⟩
  | .hbm, ⟨5, _⟩ => ⟨S1x1, .f32⟩
  | .hbm, ⟨6, _⟩ => ⟨S1048576x1, .f32⟩
  | .hbm, ⟨7, _⟩ => ⟨S1048576x1, .f32⟩
  | .hbm, ⟨8, _⟩ => ⟨S1048576x1, .f32⟩
  | .hbm, ⟨9, _⟩ => ⟨S1048576x64, .f32⟩
  | .hbm, ⟨10, _⟩ => ⟨S1048576x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S1048576, .f32⟩
  | .hbm, ⟨17, _⟩ => ⟨S1048576, .f32⟩
  | .hbm, ⟨18, _⟩ => ⟨S_, .f32⟩
  | .hbm, ⟨19, _⟩ => ⟨S1048576, .f32⟩
  | .hbm, ⟨20, _⟩ => ⟨S1048576, .f32⟩
  | .hbm, ⟨21, _⟩ => ⟨S1048576, .f32⟩
  | .hbm, ⟨22, _⟩ => ⟨S1048576, .f32⟩
  | .hbm, ⟨23, _⟩ => ⟨S_, .f32⟩
  | .hbm, ⟨24, _⟩ => ⟨S1048576, .f32⟩
  | .hbm, ⟨25, _⟩ => ⟨S1048576, .f32⟩
  | .hbm, ⟨26, _⟩ => ⟨S1048576, .f32⟩
  | .hbm, ⟨27, _⟩ => ⟨S1048576, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S64x1_S64 : S64x1.ShapeCasts S64
  shapeCasts_S1x64_S64 : S1x64.ShapeCasts S64
  reducesTo_S64_S_d0 : S64.ReducesTo [0] S_
  h_S_ : 0 < S_.numel
  shapeCasts_S1048576x1_S1048576 : S1048576x1.ShapeCasts S1048576
  bcast_S_S1048576 : S_.BroadcastsInDim S1048576 (![] : Fin 0 → Fin S1048576.rank)
  dot_S1048576x64_S64x1_S1048576x1_1_0_0_1_n_n_wf : DotDims.WF S1048576x64 S64x1 S1048576x1 [1] [0] [0] [1] [] []
  dot_S1048576x1_S1x64_S1048576x64_1_0_0_1_n_n_wf : DotDims.WF S1048576x1 S1x64 S1048576x64 [1] [0] [0] [1] [] []

variable [Facts₀]

def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf
def dot_S1048576x1_S1x64_S1048576x64_1_0_0_1_n_n : DotDims S1048576x1 S1x64 S1048576x64 where
  lhsContracting := [1]
  rhsContracting := [0]
  lhsNonContracting := [0]
  rhsNonContracting := [1]
  lhsBatch := []
  rhsBatch := []
  wf := dot_S1048576x1_S1x64_S1048576x64_1_0_0_1_n_n_wf

class Facts : Prop extends Facts₀ where

variable [Facts]
-- ==== Proof.PlanarFlow.lean ====
/-
  A planar flow with a one-dimensional bottleneck, on the extended reals.

  For a row `z` of 64 numbers, a direction `w`, an offset `b` and a second direction `u`, the flow moves
  the row to `z + t · u` with `t = tanh (⟨z, w⟩ + b)`, and the logarithm of the absolute value of its
  Jacobian determinant is `log |1 + (1 - t²) · s|` with `s = ⟨w, u⟩` (the matrix determinant lemma for the
  rank-one update `I + (1 - t²) · w uᵀ`). Here the scalar functions are stated once, and then the two arrays
  they give over `N` rows: the moved rows, an `[N, 64]` array, and the log-determinants, one per row.
  The inner product `s` does not depend on the row and enters as a number.
-/
import Idealize.ShloMosaic.PureOps.Ideal
import Idealize.ShloMosaic.Lib.ValueIdx

noncomputable section

namespace Cert.PlanarFlow

open Idealize.ShloMosaic Idealize.ShloMosaic.ValueIdx

/-- The number one, as the single-precision word both programs spell it with. -/
abbrev one : EReal := Ideal.ofBits .f32 0x3F800000#32

/-- The activation of a row: `tanh (⟨z, w⟩ + b)`. -/
def act (z w : Fin 64 → EReal) (b : EReal) : EReal :=
  Ideal.tanh ((∑ k : Fin 64, z k * w k) + b)

/-- One entry of the moved row: `z_q + t · u_q`. -/
def moved (zq t uq : EReal) : EReal := zq + t * uq

/-- The log-determinant of a row with activation `t`: `log |1 + (1 - t²) · s|`. -/
def logdet (t s : EReal) : EReal :=
  Ideal.log (FloatOps.absf (F := Ideal) (φ := .f32) (one + (one - t * t) * s))

variable {N : Nat}

/-- Row `n` of an `[N, 64]` array. -/
abbrev row (z : (⟨2, ![N, 64]⟩ : Shape).Idx → EReal) (n : Fin N) : Fin 64 → EReal := fun k => z (ix2 n k)

/-- The one column of a `[64, 1]` array, as a direction. -/
abbrev col (w : (⟨2, ![64, 1]⟩ : Shape).Idx → EReal) : Fin 64 → EReal := fun k => w (ix2 k (0 : Fin 1))

/-- The one row of a `[1, 64]` array, as a direction. -/
abbrev lane (u : (⟨2, ![1, 64]⟩ : Shape).Idx → EReal) : Fin 64 → EReal := fun k => u (ix2 (0 : Fin 1) k)

/-- The activation of every row, the direction given as a row vector. -/
def actRows (z : (⟨2, ![N, 64]⟩ : Shape).Idx → EReal) (w : Fin 64 → EReal) (b : EReal) (n : Fin N) : EReal :=
  act (row z n) w b

/-- The moved rows: entry `(n, q)` is `z (n, q) + t_n · u_q`. -/
def movedRows (z : (⟨2, ![N, 64]⟩ : Shape).Idx → EReal) (w : Fin 64 → EReal) (b : EReal) (u : Fin 64 → EReal) :
    (⟨2, ![N, 64]⟩ : Shape).Idx → EReal :=
  fun i => moved (z i) (actRows z w b (i 0)) (u (i 1))

/-- The log-determinants, laid out as an `[N, 1]` column. -/
def logdetCol (z : (⟨2, ![N, 64]⟩ : Shape).Idx → EReal) (w : Fin 64 → EReal) (b s : EReal) :
    (⟨2, ![N, 1]⟩ : Shape).Idx → EReal :=
  fun i => logdet (actRows z w b (i 0)) s

/-- The log-determinants, one per row. -/
def logdetVec (z : (⟨2, ![N, 64]⟩ : Shape).Idx → EReal) (w : Fin 64 → EReal) (b s : EReal) :
    (⟨1, ![N]⟩ : Shape).Idx → EReal :=
  fun i => logdet (actRows z w b (i 0)) s

end Cert.PlanarFlow

end
-- ==== Proof.LibColumnForms.lean ====
/-
  Column and leading-axis layout steps read at an index. A length-`a` vector cast to an `[a, 1]` column keeps its
  entries; a column broadcast to `[a, b]` repeats its entry along each row; a `[1, b, c]` array broadcast to
  `[a, b, c]` repeats its one slab. These are the steps behind `sum(keepdims=True)` added to a transposed column,
  and behind `b[None, :, :]` paired against every row of another array.
-/
import Idealize.ShloMosaic.Lib.Pipeline.Value
import Idealize.ShloMosaic.Lib.ValueIdx

namespace Cert.LibColumnForms

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibColumnForms
-- ==== Proof.LibRowForms.lean ====
/-
  Row sums and the keepdims layout steps of a normalisation over the last axis, read at an index.

  A sum over the last axis of an `[R, D]` vector, or of an `[A, B, D]` host array, is at the exact instance the
  finite sum of that row's entries. A `[A, B]` array laid out as an `[A, B, 1]` column keeps its entries; an
  `[A, B, 1]` column stretched along the last axis repeats its entry; a scalar stretched to any shape reads the
  scalar. A `[A, B, C]` array recast to `[A * B, C]` keeps row-major order, so row `a * B + b` of the matrix is
  row `(a, b)` of the array, and back.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRowForms

open Idealize.ShloMosaic Idealize.ShloMosaic.ValueIdx

/-- A lane sum over the last axis of an `[R, D]` vector: entry `p` is the sum of row `p`. -/
theorem multiReduction_add_rows {R D : Nat} {φ : FTy} (v : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ)
    (p : Fin R) :
    multiReduction .add [1] ⟨1, ![R]⟩ v acc h hφ hacc (ix1 p) = ∑ k : Fin D, v (ix2 p k) := by
  rw [Ideal.multiReduction_add_single]
  refine Finset.sum_congr rfl fun k _ => congrArg v ?_
  funext c
  match c with
  | ⟨0, _⟩ => exact Fin.ext rfl
  | ⟨1, _⟩ => exact Fin.ext rfl

/-- A host sum over the last axis of an `[A, B, D]` array from a scalar initial value: entry `(a, b)` is the initial
    value plus the sum of row `(a, b)`. -/
theorem hostReduceAdd_rows3 {A B D : Nat} {φ : FTy} (h : (⟨3, ![A, B, D]⟩ : Shape).ReducesTo [2] ⟨2, ![A, B]⟩)
    (hu : 0 < (⟨0, ![]⟩ : Shape).numel) (x : FVec Ideal ⟨3, ![A, B, D]⟩ φ) (v : (⟨0, ![]⟩ : Shape).Idx → Ideal φ)
    (a : Fin A) (b : Fin B) :
    Host.reduceAdd (F := Ideal) x v h hu (ix2 a b) = v ix0 + ∑ k : Fin D, x (ix3 a b k) := by
  have hR : (⟨3, ![A, B, D]⟩ : Shape).Reduces [2] ⟨2, ![A, B]⟩ := ⟨h.1, (Nat.zero_lt_two : 0 < 2), h.2⟩
  unfold Host.reduceAdd
  rw [Ideal.hostReduceAdd_def, Ideal.hostReduceAdd_single h hR, congrArg v (eq_ix0 (Shape.Idx.first hu))]
  congr 1
  refine Finset.sum_congr rfl fun k _ => congrArg x ?_
  funext c
  match c with
  | ⟨0, _⟩ => exact Fin.ext rfl
  | ⟨1, _⟩ => exact Fin.ext rfl
  | ⟨2, _⟩ => exact Fin.ext rfl

variable {α : Type}

/-- A scalar stretched to any shape reads the scalar everywhere. -/
theorem broadcastInDim_scalar_apply (t : Shape) (dims : Fin (⟨0, ![]⟩ : Shape).rank → Fin t.rank)
    (h : (⟨0, ![]⟩ : Shape).BroadcastsInDim t dims) (v : (⟨0, ![]⟩ : Shape).Idx → α) (j : t.Idx) :
    broadcastInDim t dims h v j = v ix0 :=
  congrArg v (eq_ix0 _)

/-- An `[A, B]` array laid out as an `[A, B, 1]` column: entry `(a, b, u)` is entry `(a, b)`. -/
theorem broadcastInDim_ab_ab1_apply {A B : Nat}
    (h : (⟨2, ![A, B]⟩ : Shape).BroadcastsInDim ⟨3, ![A, B, 1]⟩ (![0, 1] : Fin 2 → Fin (⟨3, ![A, B, 1]⟩ : Shape).rank))
    (x : (⟨2, ![A, B]⟩ : Shape).Idx → α) (a : Fin A) (b : Fin B) (u : Fin 1) :
    broadcastInDim ⟨3, ![A, B, 1]⟩ ![0, 1] h x (ix3 a b u) = x (ix2 a b) := by
  refine broadcastInDim_apply _ h x _ _ fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl

/-- An `[A, B, 1]` column stretched along the last axis: entry `(a, b, c)` is entry `(a, b, 0)`. -/
theorem broadcastInDim_ab1_abc_apply {A B C : Nat}
    (h : (⟨3, ![A, B, 1]⟩ : Shape).BroadcastsInDim ⟨3, ![A, B, C]⟩ (![0, 1, 2] : Fin 3 → Fin (⟨3, ![A, B, C]⟩ : Shape).rank))
    (x : (⟨3, ![A, B, 1]⟩ : Shape).Idx → α) (a : Fin A) (b : Fin B) (c : Fin C) :
    broadcastInDim ⟨3, ![A, B, C]⟩ ![0, 1, 2] h x (ix3 a b c) = x (ix3 a b (0 : Fin 1)) := by
  refine broadcastInDim_apply _ h x _ _ fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

/-- An `[A, B, C]` array recast to `[A * B, C]`: row `a * B + b` of the matrix is row `(a, b)` of the array. -/
theorem shapeCast_abc_rc_apply {A B C R : Nat} (x : (⟨3, ![A, B, C]⟩ : Shape).Idx → α)
    (h : (⟨3, ![A, B, C]⟩ : Shape).ShapeCasts ⟨2, ![R, C]⟩) (a : Fin A) (b : Fin B) (c : Fin C) (r : Fin R)
    (hr : r.val = a.val * B + b.val) :
    shapeCast ⟨2, ![R, C]⟩ x h (ix2 r c) = x (ix3 a b c) :=
  shapeCast_apply x h _ _ (by
    rw [Shape.rowMajor_val_three, Shape.rowMajor_val_two]
    show (a.val * B + b.val) * C + c.val = r.val * C + c.val
    rw [hr])

/-- An `[A * B, C]` matrix recast to `[A, B, C]`: row `(a, b)` of the array is row `a * B + b` of the matrix. -/
theorem shapeCast_rc_abc_apply {A B C R : Nat} (x : (⟨2, ![R, C]⟩ : Shape).Idx → α)
    (h : (⟨2, ![R, C]⟩ : Shape).ShapeCasts ⟨3, ![A, B, C]⟩) (a : Fin A) (b : Fin B) (c : Fin C) (r : Fin R)
    (hr : r.val = a.val * B + b.val) :
    shapeCast ⟨3, ![A, B, C]⟩ x h (ix3 a b c) = x (ix2 r c) :=
  shapeCast_apply x h _ _ (by
    rw [Shape.rowMajor_val_three, Shape.rowMajor_val_two]
    show r.val * C + c.val = (a.val * B + b.val) * C + c.val
    rw [hr])

end Cert.LibRowForms

end
-- ==== Proof.BlockValue.lean ====
/-
  The kernel body's three values, read at an entry.

  At a grid point the body holds a tile `x0` of 8192 rows of the array, the direction `x1` as a row vector,
  the offset `x2`, the second direction `x3` and the inner product `x4`. It forms each row's activation by a
  broadcast product and a sum along the lanes, then the moved tile and the column of log-determinants.
  Entry by entry these are the flow's scalar functions of the tile's row.
-/
import proofs.«172880_j54623394070880_1_alg».proof.Proof.Gen.KernelIdeal.Skeleton
import proofs.«172880_j54623394070880_1_alg».proof.Proof.PlanarFlow
import proofs.«172880_j54623394070880_1_alg».proof.Proof.LibColumnForms
import proofs.«172880_j54623394070880_1_alg».proof.Proof.LibRowForms
import Idealize.ShloMosaic.Lib.ValueLayout
import Idealize.ShloMosaic.Lib.Pipeline.Value
import Idealize.ShloMosaic.PureOps.Ideal.Laws

noncomputable section

namespace Cert.KernelIdeal.BlockValue

open Idealize.ShloMosaic Idealize.ShloMosaic.ValueIdx Cert.KernelIdeal Cert.KernelIdeal.Gen Cert.PlanarFlow

/-- The activation column at row `p`: the lane sum of the tile's row against the direction, plus the offset,
    through `tanh`. The direction is one row repeated down the tile, the offset one number repeated down
    the column. -/
theorem activation_at (x0 : Vec Ideal S8192x64 .f32) (x1 : Vec Ideal S1x64 .f32) (x2 : Vec Ideal S1 .f32) (p : Fin 8192) :
    k0_pay1 (F := Ideal) x0 x1 x2 (ix2 p (0 : Fin 1)) = actRows x0 (lane x1) (x2 (ix1 (0 : Fin 1))) p := by
  unfold k0_pay1 actRows act
  show Ideal.tanh (shapeCast _ _ _ (ix2 p (0 : Fin 1)) + broadcastTo _ _ _ (ix2 p (0 : Fin 1))) = _
  refine congrArg Ideal.tanh (congrArg₂ (· + ·) ?_ ?_)
  · refine (LibColumnForms.shapeCast_a_a1_apply _ _ p (0 : Fin 1)).trans ?_
    refine (LibRowForms.multiReduction_add_rows _ _ _ _ _ p).trans ?_
    refine Finset.sum_congr rfl fun k _ => ?_
    show x0 (ix2 p k) * broadcastTo _ _ _ (ix2 p k) = x0 (ix2 p k) * x1 (ix2 (0 : Fin 1) k)
    refine congrArg (x0 (ix2 p k) * ·) ?_
    refine (broadcastTo_1b_ab_apply _ _ p k).trans ?_
    exact congrFun (shapeCast_self x1 _) _
  · refine (broadcastTo_1b_ab_apply _ _ p (0 : Fin 1)).trans ?_
    exact shapeCast_a_1a_apply _ _ (0 : Fin 1) (0 : Fin 1)

/-- The moved tile at `(p, q)`: the tile's entry plus the row's activation times the second direction's
    entry `q`. -/
theorem moved_at (x0 : Vec Ideal S8192x64 .f32) (x1 : Vec Ideal S1x64 .f32) (x2 : Vec Ideal S1 .f32) (x3 : Vec Ideal S1x64 .f32)
    (p : Fin 8192) (q : Fin 64) :
    k0_pay2 (F := Ideal) x0 x1 x2 x3 (ix2 p q)
      = moved (x0 (ix2 p q)) (actRows x0 (lane x1) (x2 (ix1 (0 : Fin 1))) p) (x3 (ix2 (0 : Fin 1) q)) := by
  unfold k0_pay2 moved
  show x0 (ix2 p q) + broadcastTo _ _ _ (ix2 p q) * broadcastTo _ _ _ (ix2 p q) = _
  refine congrArg (x0 (ix2 p q) + ·) (congrArg₂ (· * ·) ?_ ?_)
  · exact (LibColumnForms.broadcastTo_a1_ab_apply _ _ p q).trans (activation_at x0 x1 x2 p)
  · exact broadcastTo_1b_ab_apply _ _ p q

/-- The log-determinant column at row `p`: `log |1 + (1 - t²) · s|` at the row's activation `t`, the inner
    product `s` one number repeated down the column. -/
theorem logdet_at (x0 : Vec Ideal S8192x64 .f32) (x1 : Vec Ideal S1x64 .f32) (x2 : Vec Ideal S1 .f32) (x4 : Vec Ideal S1x1 .f32)
    (p : Fin 8192) :
    k0_pay3 (F := Ideal) x0 x1 x2 x4 (ix2 p (0 : Fin 1))
      = logdet (actRows x0 (lane x1) (x2 (ix1 (0 : Fin 1))) p) (x4 (ix2 (0 : Fin 1) (0 : Fin 1))) := by
  unfold k0_pay3 logdet
  show Ideal.log (FloatOps.absf (F := Ideal) (φ := .f32) (one + (one - k0_pay1 (F := Ideal) x0 x1 x2 (ix2 p (0 : Fin 1)) * k0_pay1 (F := Ideal) x0 x1 x2 (ix2 p (0 : Fin 1)))
    * broadcastTo _ _ _ (ix2 p (0 : Fin 1)))) = _
  rw [activation_at x0 x1 x2 p]
  refine congrArg (fun s => Ideal.log (FloatOps.absf (F := Ideal) (φ := .f32) (one + (one - actRows x0 (lane x1) (x2 (ix1 (0 : Fin 1))) p * actRows x0 (lane x1) (x2 (ix1 (0 : Fin 1))) p) * s))) ?_
  refine (broadcastTo_1b_ab_apply _ _ p (0 : Fin 1)).trans ?_
  exact congrFun (shapeCast_self x4 _) _

end Cert.KernelIdeal.BlockValue

end
-- ==== Proof.ArrayValue.lean ====
/-
  The kernel's two arrays after the run.

  The grid has 128 points; point `t` holds rows `8192 t … 8192 t + 8191` of the array as its tile, and the
  direction, the offset, the second direction and the inner product whole. What it writes back is the flow's
  moved rows and log-determinants of its tile, which are the flow's arrays restricted to those rows, because an
  activation depends on its own row only. The 128 tiles cover every row, so after the run the two output
  arrays are the flow's arrays of the whole input. The direction reaches the kernel transposed to a row
  vector and the inner product as a host sum laid out `[1, 1]`; the second output is laid out as a vector by
  a last reshape.
-/
import proofs.«172880_j54623394070880_1_alg».proof.Proof.Gen.KernelIdeal.Frame
import proofs.«172880_j54623394070880_1_alg».proof.Proof.BlockValue
import Idealize.ShloMosaic.Lib.Pipeline.Value
import Idealize.ShloMosaic.Lib.StableHlo.Run
import Idealize.ShloMosaic.Lib.ValueLayout

noncomputable section

namespace Cert.KernelIdeal.ArrayValue

open Idealize.ShloMosaic Idealize.ShloMosaic.TcCoe Idealize.SL.Sem Idealize.ShloMosaic.ValueIdx
open Cert.KernelIdeal Cert.KernelIdeal.Gen Cert.PlanarFlow Cert.KernelIdeal.BlockValue
open Idealize.ShloMosaic.Pipeline (Dat)

variable (m : (ℓ : Loc nD τ sig) → Buf (Elt Ideal) ℓ) (ρ : Dev nD → PrngReg)

/-! ## The arrays the region finds, and the tiles a point holds -/

abbrev zArr (c : Dev nD) : Vec Ideal S1048576x64 .f32 := V m c main_arg0
abbrev wArr (c : Dev nD) : Vec Ideal S1x64 .f32 := V m c main_v0
abbrev bArr (c : Dev nD) : Vec Ideal S1 .f32 := V m c main_arg2
abbrev uArr (c : Dev nD) : Vec Ideal S1x64 .f32 := V m c main_arg3
abbrev sArr (c : Dev nD) : Vec Ideal S1x1 .f32 := V m c main_v5

abbrev zTile (c : Dev nD) (t : Fin cfg0.N) : Vec Ideal S8192x64 .f32 := iblk m c 0 t
abbrev wTile (c : Dev nD) (t : Fin cfg0.N) : Vec Ideal S1x64 .f32 := iblk m c 1 t
abbrev bTile (c : Dev nD) (t : Fin cfg0.N) : Vec Ideal S1 .f32 := iblk m c 2 t
abbrev uTile (c : Dev nD) (t : Fin cfg0.N) : Vec Ideal S1x64 .f32 := iblk m c 3 t
abbrev sTile (c : Dev nD) (t : Fin cfg0.N) : Vec Ideal S1x1 .f32 := iblk m c 4 t

/-- The block index of every window at every point: the tiled windows move down the rows with the point, the
    others stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 128 := N_0 ▸ t.isLt

theorem row_lt (t : Fin cfg0.N) (p : Fin 8192) : t.val * 8192 + p.val < 1048576 := by
  have h := point_lt t
  have := p.isLt
  omega

/-- Row `p` of point `t`'s tile, as a row of the array. -/
abbrev rowOf (t : Fin cfg0.N) (p : Fin 8192) : Fin 1048576 := ⟨t.val * 8192 + p.val, row_lt t p⟩

/-- The tile of point `t` is rows `8192 t …` of the array. -/
theorem zTile_at (c : Dev nD) (t : Fin cfg0.N) (p : Fin 8192) (k : Fin 64) :
    zTile m c t (ix2 p k) = zArr m c (ix2 (rowOf t p) k) := by
  show zArr m c (((cfg0.win 0).blk t).view.emb (ix2 p k)) = _
  refine congrArg (zArr m c) (funext fun a => Fin.ext ?_)
  obtain ⟨e0, e1, -⟩ := idx_facts t
  match a with
  | ⟨0, _⟩ => show win0_0.index t (0 : Fin 2) * 8192 + 1 * p.val = t.val * 8192 + p.val; omega
  | ⟨1, _⟩ => show win0_0.index t (1 : Fin 2) * 64 + 1 * k.val = k.val; omega

/-- The direction, the offset, the second direction and the inner product are held whole at every point. -/
theorem wTile_at (c : Dev nD) (t : Fin cfg0.N) (k : Fin 64) :
    wTile m c t (ix2 (0 : Fin 1) k) = wArr m c (ix2 (0 : Fin 1) k) := by
  show wArr m c (((cfg0.win 1).blk t).view.emb (ix2 (0 : Fin 1) k)) = _
  refine congrArg (wArr m c) (funext fun a => Fin.ext ?_)
  obtain ⟨-, -, e0, e1, -⟩ := idx_facts t
  match a with
  | ⟨0, _⟩ => show win0_1.index t (0 : Fin 2) * 1 + 1 * 0 = 0; omega
  | ⟨1, _⟩ => show win0_1.index t (1 : Fin 2) * 64 + 1 * k.val = k.val; omega

theorem bTile_at (c : Dev nD) (t : Fin cfg0.N) :
    bTile m c t (ix1 (0 : Fin 1)) = bArr m c (ix1 (0 : Fin 1)) := by
  show bArr m c (((cfg0.win 2).blk t).view.emb (ix1 (0 : Fin 1))) = _
  refine congrArg (bArr m c) (funext fun a => Fin.ext ?_)
  obtain ⟨-, -, -, -, e0, -⟩ := idx_facts t
  match a with
  | ⟨0, _⟩ => show win0_2.index t (0 : Fin 1) * 1 + 1 * 0 = 0; omega

theorem uTile_at (c : Dev nD) (t : Fin cfg0.N) (q : Fin 64) :
    uTile m c t (ix2 (0 : Fin 1) q) = uArr m c (ix2 (0 : Fin 1) q) := by
  show uArr m c (((cfg0.win 3).blk t).view.emb (ix2 (0 : Fin 1) q)) = _
  refine congrArg (uArr m c) (funext fun a => Fin.ext ?_)
  obtain ⟨-, -, -, -, -, e0, e1, -⟩ := idx_facts t
  match a with
  | ⟨0, _⟩ => show win0_3.index t (0 : Fin 2) * 1 + 1 * 0 = 0; omega
  | ⟨1, _⟩ => show win0_3.index t (1 : Fin 2) * 64 + 1 * q.val = q.val; omega

theorem sTile_at (c : Dev nD) (t : Fin cfg0.N) :
    sTile m c t (ix2 (0 : Fin 1) (0 : Fin 1)) = sArr m c (ix2 (0 : Fin 1) (0 : Fin 1)) := by
  show sArr m c (((cfg0.win 4).blk t).view.emb (ix2 (0 : Fin 1) (0 : Fin 1))) = _
  refine congrArg (sArr m c) (funext fun a => Fin.ext ?_)
  obtain ⟨-, -, -, -, -, -, -, e0, e1, -⟩ := idx_facts t
  match a with
  | ⟨0, _⟩ => show win0_4.index t (0 : Fin 2) * 1 + 1 * 0 = 0; omega
  | ⟨1, _⟩ => show win0_4.index t (1 : Fin 2) * 1 + 1 * 0 = 0; omega

/-- A row's activation, computed from the tile, is the activation of that row of the array. -/
theorem actRows_tile (c : Dev nD) (t : Fin cfg0.N) (p : Fin 8192) :
    actRows (zTile m c t) (lane (wTile m c t)) (bTile m c t (ix1 (0 : Fin 1))) p
      = actRows (zArr m c) (lane (wArr m c)) (bArr m c (ix1 (0 : Fin 1))) (rowOf t p) := by
  unfold actRows act
  rw [bTile_at]
  refine congrArg (fun s => Ideal.tanh (s + bArr m c (ix1 (0 : Fin 1)))) (Finset.sum_congr rfl fun k _ => ?_)
  show zTile m c t (ix2 p k) * wTile m c t (ix2 (0 : Fin 1) k) = zArr m c (ix2 (rowOf t p) k) * wArr m c (ix2 (0 : Fin 1) k)
  rw [zTile_at, wTile_at]

/-! ## What a point writes back -/

theorem zeros2 : (![0, 0] : Fin 2 → Nat) = fun _ => 0 := funext fun a => by fin_cases a <;> rfl
theorem zeros1 : (![0] : Fin 1 → Nat) = fun _ => 0 := funext fun a => by fin_cases a; rfl

/-- Entry `(p, q)` of point `t`'s output tile lies at row `8192 t + p` of the first output array. -/
theorem moved_emb (t : Fin cfg0.N) (p : Fin 8192) (q : Fin 64) :
    ((cfg0.win 5).blk t).view.emb (ix2 p q) = ix2 (rowOf t p) q := by
  funext a; apply Fin.ext
  obtain ⟨-, -, -, -, -, -, -, -, -, e0, e1, -⟩ := idx_facts t
  match a with
  | ⟨0, _⟩ => show win0_5.index t (0 : Fin 2) * 8192 + 1 * p.val = t.val * 8192 + p.val; omega
  | ⟨1, _⟩ => show win0_5.index t (1 : Fin 2) * 64 + 1 * q.val = q.val; omega

/-- Entry `p` of point `t`'s output column lies at row `8192 t + p` of the second output array. -/
theorem logdet_emb (t : Fin cfg0.N) (p : Fin 8192) :
    ((cfg0.win 6).blk t).view.emb (ix2 p (0 : Fin 1)) = ix2 (rowOf t p) (0 : Fin 1) := by
  funext a; apply Fin.ext
  obtain ⟨-, -, -, -, -, -, -, -, -, -, -, e0, e1⟩ := idx_facts t
  match a with
  | ⟨0, _⟩ => show win0_6.index t (0 : Fin 2) * 8192 + 1 * p.val = t.val * 8192 + p.val; omega
  | ⟨1, _⟩ => show win0_6.index t (1 : Fin 2) * 1 + 1 * 0 = 0; omega

/-- The moved rows of the whole array, as the first output array should end. -/
abbrev movedArr (c : Dev nD) : Vec Ideal S1048576x64 .f32 :=
  movedRows (zArr m c) (lane (wArr m c)) (bArr m c (ix1 (0 : Fin 1))) (lane (uArr m c))

/-- The log-determinants of the whole array as a column, as the second output array should end. -/
abbrev logdetArr (c : Dev nD) : Vec Ideal S1048576x1 .f32 :=
  logdetCol (zArr m c) (lane (wArr m c)) (bArr m c (ix1 (0 : Fin 1))) (sArr m c (ix2 (0 : Fin 1) (0 : Fin 1)))

/-- What point `t` writes back to the first output is block `t` of the moved rows of the whole array. -/
theorem flushed_moved (c : Dev nD) (t : Fin cfg0.N) :
    (dats m 0 c).flushed 5 t = ((cfg0.win 5).blk t).view.read (Elt Ideal) (movedArr m c) := by
  show (cfg0.win 5).cut (grid0.coords t) ((dats m 0 c).after 5 t) = _
  rw [after0_5]
  unfold out0_5
  rw [View.canon_unit_zero zeros2]
  simp only [View.ld_unit_zero (S := S8192x64) zeros2, View.ld_unit_zero (S := S1x64) zeros2, View.ld_unit_zero (S := S1) zeros1]
  funext j
  obtain ⟨p, q, rfl⟩ : ∃ (p : Fin 8192) (q : Fin 64), j = ix2 p q := ⟨j 0, j 1, eq_ix2 j⟩
  show k0_pay2 (F := Ideal) (zTile m c t) (wTile m c t) (bTile m c t) (uTile m c t) (ix2 p q)
    = movedArr m c (((cfg0.win 5).blk t).view.emb (ix2 p q))
  rw [moved_at, moved_emb, actRows_tile, zTile_at, uTile_at]
  rfl

/-- What point `t` writes back to the second output is block `t` of the log-determinant column. -/
theorem flushed_logdet (c : Dev nD) (t : Fin cfg0.N) :
    (dats m 0 c).flushed 6 t = ((cfg0.win 6).blk t).view.read (Elt Ideal) (logdetArr m c) := by
  show (cfg0.win 6).cut (grid0.coords t) ((dats m 0 c).after 6 t) = _
  rw [after0_6]
  unfold out0_6
  rw [View.canon_unit_zero zeros2]
  simp only [View.ld_unit_zero (S := S8192x64) zeros2, View.ld_unit_zero (S := S1x64) zeros2, View.ld_unit_zero (S := S1) zeros1,
    View.ld_unit_zero (S := S1x1) zeros2]
  funext j
  obtain ⟨p, q, rfl⟩ : ∃ (p : Fin 8192) (q : Fin 1), j = ix2 p q := ⟨j 0, j 1, eq_ix2 j⟩
  obtain rfl : q = 0 := Subsingleton.elim _ _
  show k0_pay3 (F := Ideal) (zTile m c t) (wTile m c t) (bTile m c t) (sTile m c t) (ix2 p (0 : Fin 1))
    = logdetArr m c (((cfg0.win 6).blk t).view.emb (ix2 p (0 : Fin 1)))
  rw [logdet_at, logdet_emb, actRows_tile, sTile_at]
  rfl

/-! ## The tiles cover every row -/

theorem mem_moved_blk (t : Fin cfg0.N) (i : S1048576x64.Idx) :
    i ∈ ((cfg0.win 5).blk t).view.set ↔ ∀ a : Fin 2, win0_5.index t a * S8192x64.size a ≤ (i a).val ∧ (i a).val < win0_5.index t a * S8192x64.size a + S8192x64.size a := by
  show i ∈ ((View.whole main_v6_0).slice (win0_5.rect t)).set ↔ _
  rw [View.set_slice_whole, Rect.mem_set_unit]
  exact Iff.rfl

theorem mem_logdet_blk (t : Fin cfg0.N) (i : S1048576x1.Idx) :
    i ∈ ((cfg0.win 6).blk t).view.set ↔ ∀ a : Fin 2, win0_6.index t a * S8192x1.size a ≤ (i a).val ∧ (i a).val < win0_6.index t a * S8192x1.size a + S8192x1.size a := by
  show i ∈ ((View.whole main_v6_1).slice (win0_6.rect t)).set ↔ _
  rw [View.set_slice_whole, Rect.mem_set_unit]
  exact Iff.rfl

/-- The point that holds row `r` is `r / 8192`. -/
abbrev pointOf (r : Fin 1048576) : Fin cfg0.N := ⟨r.val / 8192, by rw [show cfg0.N = 128 from N_0]; have := r.isLt; omega⟩

theorem cover_moved (i : S1048576x64.Idx) :
    ∃ t : Fin cfg0.N, (cfg0.win 5).flush t = true ∧ i ∈ ((cfg0.win 5).blk t).view.set := by
  have hi0 : (i 0).val < 1048576 := (i 0).isLt
  have hi1 : (i 1).val < 64 := (i 1).isLt
  refine ⟨pointOf (i 0), flush0_5 _, ?_⟩
  rw [mem_moved_blk]
  obtain ⟨-, -, -, -, -, -, -, -, -, e0, e1, -⟩ := idx_facts (pointOf (i 0))
  have ht : (pointOf (i 0)).val = (i 0).val / 8192 := rfl
  intro a
  match a with
  | ⟨0, _⟩ => show win0_5.index (pointOf (i 0)) (0 : Fin 2) * 8192 ≤ (i 0).val ∧ (i 0).val < win0_5.index (pointOf (i 0)) (0 : Fin 2) * 8192 + 8192; omega
  | ⟨1, _⟩ => show win0_5.index (pointOf (i 0)) (1 : Fin 2) * 64 ≤ (i 1).val ∧ (i 1).val < win0_5.index (pointOf (i 0)) (1 : Fin 2) * 64 + 64; omega

theorem cover_logdet (i : S1048576x1.Idx) :
    ∃ t : Fin cfg0.N, (cfg0.win 6).flush t = true ∧ i ∈ ((cfg0.win 6).blk t).view.set := by
  have hi0 : (i 0).val < 1048576 := (i 0).isLt
  have hi1 : (i 1).val < 1 := (i 1).isLt
  refine ⟨pointOf (i 0), flush0_6 _, ?_⟩
  rw [mem_logdet_blk]
  obtain ⟨-, -, -, -, -, -, -, -, -, -, -, e0, e1⟩ := idx_facts (pointOf (i 0))
  have ht : (pointOf (i 0)).val = (i 0).val / 8192 := rfl
  intro a
  match a with
  | ⟨0, _⟩ => show win0_6.index (pointOf (i 0)) (0 : Fin 2) * 8192 ≤ (i 0).val ∧ (i 0).val < win0_6.index (pointOf (i 0)) (0 : Fin 2) * 8192 + 8192; omega
  | ⟨1, _⟩ => show win0_6.index (pointOf (i 0)) (1 : Fin 2) * 1 ≤ (i 1).val ∧ (i 1).val < win0_6.index (pointOf (i 0)) (1 : Fin 2) * 1 + 1; omega

/-- The first output array after the run: the moved rows of the whole array. -/
theorem final_moved (c : Dev nD) : (dats m 0 c).arrAt 5 cfg0.N = movedArr m c :=
  (dats m 0 c).arrAt_eq_of_cover 5 (movedArr m c) (fun t _ => flushed_moved m c t) cover_moved

/-- The second output array after the run: the log-determinant column of the whole array. -/
theorem final_logdet (c : Dev nD) : (dats m 0 c).arrAt 6 cfg0.N = logdetArr m c :=
  (dats m 0 c).arrAt_eq_of_cover 6 (logdetArr m c) (fun t _ => flushed_logdet m c t) cover_logdet

/-! ## The host lines before and after the region -/

/-- The direction reaches the region transposed to a row vector. -/
theorem wArr_eq (c : Dev nD) :
    wArr m c = transpose S1x64 [1, 0] (m ((c : Thread nD τ).loc main_arg1)) transposes_S64x1_S1x64_1_0 := by
  show StableHlo.after hostOps0 (fun b => m (c, b)) (Proc.devRef .tc main_v0) = _
  after_results

/-- So its lanes are the entries of the direction's one column. -/
theorem lane_wArr (c : Dev nD) : lane (wArr m c) = col (m ((c : Thread nD τ).loc main_arg1)) := by
  funext k
  rw [wArr_eq]
  exact transpose_ix2_apply _ _ (0 : Fin 1) k

/-- The inner product of the two directions, as the host sums it before the region. -/
abbrev innerProduct (c : Dev nD) : EReal :=
  Host.reduceAdd (F := Ideal) (mulf (shapeCast _ (m ((c : Thread nD τ).loc main_arg1)) shapeCasts_S64x1_S64)
    (shapeCast _ (m ((c : Thread nD τ).loc main_arg3)) shapeCasts_S1x64_S64)) (constant S_ .f32 0x00000000#32)
    reducesTo_S64_S_d0 h_S_ ix0

/-- It reaches the region laid out `[1, 1]`. -/
theorem sArr_eq (c : Dev nD) :
    sArr m c = shapeCast _ (Host.reduceAdd (F := Ideal) (mulf (shapeCast _ (m ((c : Thread nD τ).loc main_arg1)) shapeCasts_S64x1_S64)
      (shapeCast _ (m ((c : Thread nD τ).loc main_arg3)) shapeCasts_S1x64_S64)) (constant S_ .f32 0x00000000#32)
      reducesTo_S64_S_d0 h_S_) shapeCasts_S_S1x1 := by
  show StableHlo.after hostOps0 (fun b => m (c, b)) (Proc.devRef .tc main_v5) = _
  after_results
  rfl

theorem sArr_at (c : Dev nD) : sArr m c (ix2 (0 : Fin 1) (0 : Fin 1)) = innerProduct m c := by
  rw [sArr_eq]
  exact shapeCast_apply _ _ _ ix0 (by
    have h1 : (S_.rowMajor ix0).val < 1 := Nat.lt_of_lt_of_eq (S_.rowMajor ix0).isLt (by decide)
    have h2 : (S1x1.rowMajor (ix2 (0 : Fin 1) (0 : Fin 1))).val < 1 :=
      Nat.lt_of_lt_of_eq (S1x1.rowMajor (ix2 (0 : Fin 1) (0 : Fin 1))).isLt (by decide)
    exact (Nat.lt_one_iff.mp h1).trans (Nat.lt_one_iff.mp h2).symm)

/-- A column of `N` numbers laid out as a vector keeps its entries. -/
theorem logdet_vec (z : S1048576x64.Idx → EReal) (w : Fin 64 → EReal) (b s : EReal) :
    shapeCast S1048576 (logdetCol z w b s) shapeCasts_S1048576x1_S1048576 = logdetVec z w b s := by
  funext i
  refine (shapeCast_apply _ _ i (ix2 (i 0) (0 : Fin 1)) (by
    rw [Shape.rowMajor_val_two, Shape.rowMajor_val_one]
    show (i 0).val * 1 + 0 = (i 0).val
    omega)).trans ?_
  rfl

/-! ## The run, read -/

/-- Every weakly fair execution of the kernel's program ends with the first result at the moved rows of the
    input array, the second at its log-determinants, and the arguments as they were. -/
theorem run : θ_run defs (onTc (τ := τ) (main (F := Ideal))) ⟨m, fun _ => 0, ρ⟩ fun r => ∀ c : Dev nD,
      r.2.mem ((c.tc : Thread nD τ).loc main_v6_0)
        = movedRows (m ((c.tc : Thread nD τ).loc main_arg0)) (col (m ((c.tc : Thread nD τ).loc main_arg1)))
            (m ((c.tc : Thread nD τ).loc main_arg2) (ix1 (0 : Fin 1))) (lane (m ((c.tc : Thread nD τ).loc main_arg3)))
      ∧ r.2.mem ((c.tc : Thread nD τ).loc main_v7)
        = logdetVec (m ((c.tc : Thread nD τ).loc main_arg0)) (col (m ((c.tc : Thread nD τ).loc main_arg1)))
            (m ((c.tc : Thread nD τ).loc main_arg2) (ix1 (0 : Fin 1))) (innerProduct m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, ?_, ?_, ?_, ?_, ?_⟩) (run_main m ρ)
  · refine (((h c).1 5).trans (final_moved m c)).trans ?_
    show movedRows (zArr m c) (lane (wArr m c)) (bArr m c (ix1 (0 : Fin 1))) (lane (uArr m c)) = _
    rw [lane_wArr, show zArr m c = m ((c : Thread nD τ).loc main_arg0) from V_main_arg0 m c,
      show bArr m c = m ((c : Thread nD τ).loc main_arg2) from V_main_arg2 m c,
      show uArr m c = m ((c : Thread nD τ).loc main_arg3) from V_main_arg3 m c]
  · refine ((h c).2 main_v7 (Pipeline.mem_restRefs_of main_v7 (by decide) (by decide))).trans ?_
    unfold Pipeline.afterTail₀
    show StableHlo.after hostOps1 _ (Proc.devRef .tc main_v7) = _
    after_results
    rw [show Pipeline.withArrays spec0 c (V0 m c) (fun w => (dats m 0 c).arrAt w cfg0.N) (Proc.devRef .tc main_v6_1) = logdetArr m c from
      (Pipeline.withArrays_arr spec0 launch0.win.arr_inj c _ _ 6).trans (final_logdet m c)]
    show shapeCast S1048576 (logdetCol (zArr m c) (lane (wArr m c)) (bArr m c (ix1 (0 : Fin 1))) (sArr m c (ix2 (0 : Fin 1) (0 : Fin 1)))) shapeCasts_S1048576x1_S1048576 = _
    rw [logdet_vec, sArr_at, lane_wArr, show zArr m c = m ((c : Thread nD τ).loc main_arg0) from V_main_arg0 m c,
      show bArr m c = m ((c : Thread nD τ).loc main_arg2) from V_main_arg2 m c]
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).1 2).trans (((dats m 0 c).arrAt_in 2 rfl _).trans ((A_eq m c 2).trans (V_main_arg2 m c)))
  · exact ((h c).1 3).trans (((dats m 0 c).arrAt_in 3 rfl _).trans ((A_eq m c 3).trans (V_main_arg3 m c)))

end Cert.KernelIdeal.ArrayValue

end
-- ==== Proof.RefValue.lean ====
/-
  The reference's two results are the flow's arrays.

  The reference forms each row's activation by a matrix product with the `[64, 1]` direction, adds the offset
  and takes `tanh`; it moves the rows by a matrix product of the activation column with the `[1, 64]` second
  direction, a sum of one term; and it computes the log-determinants from the activation column laid out as a
  vector, with the inner product of the two directions a host sum. Read one operation at a time at an index,
  these are the flow's scalar functions of the array's row; the inner product stays the host's own sum.
-/
import proofs.«172880_j54623394070880_1_alg».proof.Proof.Gen.ReferenceIdeal.Read
import proofs.«172880_j54623394070880_1_alg».proof.Proof.PlanarFlow

noncomputable section

namespace Cert.ReferenceIdeal.RefValue

open Idealize.ShloMosaic Idealize.ShloMosaic.ValueIdx Cert.ReferenceIdeal Cert.ReferenceIdeal.Read Cert.PlanarFlow

/-- The inner product of the two directions, as the reference sums it. -/
abbrev innerProduct (x1 : S64x1.Idx → EReal) (x3 : S1x64.Idx → EReal) : EReal :=
  val_main_v10 (F := Ideal) x1 x3 ix0

/-- The activation column at row `i 0`: a sum over the 64 lanes of the row against the direction's column,
    plus the offset, through `tanh`. -/
theorem activation_ref (x0 : S1048576x64.Idx → EReal) (x1 : S64x1.Idx → EReal) (x2 : S1.Idx → EReal) (i : S1048576x1.Idx) :
    val_main_v4 (F := Ideal) x0 x1 x2 i = actRows x0 (col x1) (x2 (ix1 (0 : Fin 1))) (i 0) := by
  rw [val_main_v4_apply, val_main_v3_apply, val_main_v0_apply, val_main_v2_apply, val_main_v1_apply]
  have el : ∀ k : Fin 64, lidx_main_v0 i k = ix2 (i 0) k := fun k => funext fun a => Fin.ext (by
    match a with
    | ⟨0, _⟩ => rfl
    | ⟨1, _⟩ => rfl)
  have er : ∀ k : Fin 64, ridx_main_v0 i k = ix2 k (0 : Fin 1) := fun k => funext fun a => Fin.ext (by
    match a with
    | ⟨0, _⟩ => rfl
    | ⟨1, _⟩ => exact (show (i 1).val = 0 by have h : (i 1).val < 1 := (i 1).isLt; omega))
  have eb : idx_main_v1 (idx_main_v2 i) = ix1 (0 : Fin 1) := funext fun a => Fin.ext (by
    match a with
    | ⟨0, _⟩ => rfl)
  simp only [el, er, eb, Ideal.hostUnary_tanh_def, Ideal.addf_def]
  rfl

/-- The first result: the moved rows. The second matrix product contracts an axis of length one. -/
theorem moved_ref (x0 : S1048576x64.Idx → EReal) (x1 : S64x1.Idx → EReal) (x2 : S1.Idx → EReal) (x3 : S1x64.Idx → EReal) :
    val_main_v6 (F := Ideal) x0 x1 x2 x3 = movedRows x0 (col x1) (x2 (ix1 (0 : Fin 1))) (lane x3) := by
  funext i
  rw [val_main_v6_apply, val_main_v5_apply, Fin.sum_univ_one, activation_ref]
  have er : ridx_main_v5 i (0 : Fin 1) = ix2 (0 : Fin 1) (i 1) := funext fun a => Fin.ext (by
    match a with
    | ⟨0, _⟩ => rfl
    | ⟨1, _⟩ => rfl)
  rw [er]
  rfl

/-- The second result: the log-determinants, one per row. -/
theorem logdet_ref (x0 : S1048576x64.Idx → EReal) (x1 : S64x1.Idx → EReal) (x2 : S1.Idx → EReal) (x3 : S1x64.Idx → EReal) :
    val_main_v20 (F := Ideal) x0 x1 x2 x3
      = logdetVec x0 (col x1) (x2 (ix1 (0 : Fin 1))) (innerProduct x1 x3) := by
  funext i
  rw [val_main_v20_apply, val_main_v19_apply, val_main_v18_apply, val_main_v17_apply, val_main_cst_1_apply,
    val_main_v16_apply, val_main_v14_apply, val_main_v13_apply, val_main_cst_0_apply, val_main_v12_apply,
    val_main_v11_apply, val_main_v15_apply, activation_ref]
  have e11 : idx_main_v11 i 0 = i 0 := Fin.ext (Nat.div_one _)
  rw [e11]
  rfl

end Cert.ReferenceIdeal.RefValue

end
-- ==== Proof.lean ====
/-
  A planar flow with a one-dimensional bottleneck: the tiled kernel against the reference.

  Both programs compute, for every row `z` of a `[1048576, 64]` array, the activation
  `t = tanh (⟨z, w⟩ + b)`, the moved row `z + t · u` and the log-determinant `log |1 + (1 - t²) · ⟨w, u⟩|`.
  The kernel walks the rows 8192 at a time and forms `⟨z, w⟩` by a broadcast product summed along the lanes
  and `t · u` by a broadcast product; the reference forms the first by a matrix product with the `[64, 1]`
  direction and the second by a matrix product over an axis of length one. On the extended reals a sum does not
  depend on how it is grouped and a sum of one term is that term, so entry by entry both are the same scalar
  functions of the same row (Proof/PlanarFlow.lean), and no property of the inputs is used. The inner product
  `⟨w, u⟩` is the same host sum in both programs. The idealization rewrote nothing, so the kernel's idealized
  program is its own text read on the extended reals.
-/
import proofs.«172880_j54623394070880_1_alg».proof.Defs
import proofs.«172880_j54623394070880_1_alg».proof.Proof.Gen.Kernel
import proofs.«172880_j54623394070880_1_alg».proof.Proof.Gen.Kernel.Skeleton
import proofs.«172880_j54623394070880_1_alg».proof.Proof.Gen.Kernel.Launch
import proofs.«172880_j54623394070880_1_alg».proof.Proof.Gen.Kernel.Points
import proofs.«172880_j54623394070880_1_alg».proof.Proof.Gen.Kernel.Frame
import proofs.«172880_j54623394070880_1_alg».proof.Proof.Gen.KernelIdeal
import proofs.«172880_j54623394070880_1_alg».proof.Proof.Gen.KernelIdeal.Skeleton
import proofs.«172880_j54623394070880_1_alg».proof.Proof.Gen.KernelIdeal.Launch
import proofs.«172880_j54623394070880_1_alg».proof.Proof.Gen.KernelIdeal.Points
import proofs.«172880_j54623394070880_1_alg».proof.Proof.Gen.KernelIdeal.Frame
import proofs.«172880_j54623394070880_1_alg».proof.Proof.Gen.ReferenceIdeal
import proofs.«172880_j54623394070880_1_alg».proof.Proof.Gen.ReferenceIdeal.Run
import proofs.«172880_j54623394070880_1_alg».proof.Proof.Gen.ReferenceIdeal.Read
import proofs.«172880_j54623394070880_1_alg».proof.Proof.Gen.Pre_finite_inputs
import proofs.«172880_j54623394070880_1_alg».proof.Proof.ArrayValue
import proofs.«172880_j54623394070880_1_alg».proof.Proof.RefValue
import Idealize.ShloMosaic.Adequacy
import Idealize.ShloMosaic.Init

noncomputable section

namespace Cert.Proof

open Idealize.ShloMosaic Idealize.SL.Sem Idealize.ShloMosaic.ValueIdx Cert.PlanarFlow

/-- The kernel's program runs and leaves its arguments as they were. -/
theorem frame_kernel : Cert.frame_Kernel := fun m ρ _ => Cert.Kernel.Gen.frame m ρ

/-- So does its idealized program. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, the kernel's two results and the reference's are the flow's two arrays of the
    same input: the moved rows, and the log-determinants at the same inner product of the two directions. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v6_eq, Cert.ReferenceIdeal.RefValue.moved_ref,
      (hagree c).1, (hagree c).2.1, (hagree c).2.2.1, (hagree c).2.2.2]
  · rw [(h c).2.1, Cert.ReferenceIdeal.Read.val_main_v20_eq, Cert.ReferenceIdeal.RefValue.logdet_ref,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
